-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024 : Shape := ⟨2, ![32, 1024]⟩
abbrev S1024x1024 : Shape := ⟨2, ![1024, 1024]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S32x1024x1024 .f32) (main_arg1 : FVec F S32x1024 .f32) (main_arg2 : FVec F S1024x1024 .f32) (main_arg3 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S32x1024x1024 : Shape := ⟨3, ![32, 1024, 1024]⟩
abbrev S32x1024 : Shape := ⟨2, ![32, 1024]⟩
abbrev S1024x1024 : Shape := ⟨2, ![1024, 1024]⟩
abbrev S1024 : Shape := ⟨1, ![1024]⟩
abbrev S32x1x1024 : Shape := ⟨3, ![32, 1, 1024]⟩
abbrev S1x1x1024 : Shape := ⟨3, ![1, 1, 1024]⟩
abbrev S32x1024x2048 : Shape := ⟨3, ![32, 1024, 2048]⟩
abbrev S1x512x1024 : Shape := ⟨3, ![1, 512, 1024]⟩
abbrev S1024x512 : Shape := ⟨2, ![1024, 512]⟩
abbrev S1x1x512 : Shape := ⟨3, ![1, 1, 512]⟩
abbrev S1x512x2048 : Shape := ⟨3, ![1, 512, 2048]⟩
abbrev S1x1024 : Shape := ⟨2, ![1, 1024]⟩
abbrev S1x512 : Shape := ⟨2, ![1, 512]⟩
abbrev S1x512x1 : Shape := ⟨3, ![1, 512, 1]⟩

abbrev nBuf : Space → Nat
  | .hbm => 7
  | .vmem => 10
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S32x1x1024, .f32⟩
  | .hbm, ⟨5, _⟩ => ⟨S1x1x1024, .f32⟩
  | .hbm, ⟨6, _⟩ => ⟨S32x1024x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1x512x2048, .f32⟩
  | .local _ .vmem, ⟨9, _⟩ => ⟨S1x512x2048, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32x1024_S32x1x1024 : S32x1024.ShapeCasts S32x1x1024
  shapeCasts_S1024_S1x1x1024 : S1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  shapeCasts_S1x1x1024_S1x1024 : S1x1x1024.ShapeCasts S1x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  shapeCasts_S1x1x512_S1x512 : S1x1x512.ShapeCasts S1x512
  inb_S1024x512_S1024x512_0_0 : ∀ a, (![0, 0] : Fin 2 → Nat) a + S1024x512.size a ≤ S1024x512.size a
  h_S1024x512 : 0 < S1024x512.numel
  inb_S1x512x1024_S1x512x1024_0_0_0 : ∀ a, (![0, 0, 0] : Fin 3 → Nat) a + S1x512x1024.size a ≤ S1x512x1024.size a
  h_S1x512x1024 : 0 < S1x512x1024.numel
  shapeCasts_S1x512_S1x512x1 : S1x512.ShapeCasts S1x512x1
  broadcasts_S1x512x1_S1x512x1024 : S1x512x1.Broadcasts S1x512x1024
  shapeCasts_S1x1024_S1x1x1024 : S1x1024.ShapeCasts S1x1x1024
  broadcasts_S1x1x1024_S1x512x1024 : S1x1x1024.Broadcasts S1x512x1024
  concatenates_S1x512x1024_S1x512x1024_S1x512x2048_d2 : Shape.Concatenates [S1x512x1024, S1x512x1024] S1x512x2048 2
  inb_S1x512x2048_S1x512x2048_0_0_0 : ∀ a, (![0, 0, 0] : Fin 3 → Nat) a + S1x512x2048.size a ≤ S1x512x2048.size a
  h_S1x512x2048 : 0 < S1x512x2048.numel
  dot_S1x1024_S1024x512_S1x512_1_0_0_1_n_n_wf : DotDims.WF S1x1024 S1024x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x1024x1024.size a
  hwx0_0 : ∀ i : grid0.Coords, EltTy.bits .f32 = 32 ∨ (Rect.block (s := S32x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .f32 = 32 ∨ (Rect.block (s := S32x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x1024.size a
  hwx0_2 : ∀ i : grid0.Coords, EltTy.bits .f32 = 32 ∨ (Rect.block (s := S1024x1024) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S1x1x1024.size a
  hwx0_3 : ∀ i : grid0.Coords, EltTy.bits .f32 = 32 ∨ (Rect.block (s := S1x1x1024) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x1024x2048.size a
  hwx0_4 : ∀ i : grid0.Coords, EltTy.bits .f32 = 32 ∨ (Rect.block (s := S32x1024x2048) S1x512x2048.size (cc0_transform_4 i) (hinb0_4 i)).WholeWords (EltTy.packing .f32)

variable [Facts₀]

def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S32x1024x1 : Shape := ⟨3, ![32, 1024, 1]⟩
abbrev S32x1x1024 : Shape := ⟨3, ![32, 1, 1024]⟩
abbrev S32x1024x2048 : Shape := ⟨3, ![32, 1024, 2048]⟩

abbrev nBuf : Space → Nat
  | .hbm => 22
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024, .f32⟩
  | .hbm, ⟨2, _⟩ => ⟨S1024x1024, .f32⟩
  | .hbm, ⟨3, _⟩ => ⟨S1024, .f32⟩
  | .hbm, ⟨4, _⟩ => ⟨S32x1024, .f32⟩
  | .hbm, ⟨5, _⟩ => ⟨S1x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32x1024, .f32⟩
  | .hbm, ⟨12, _⟩ => ⟨S32x1024, .f32⟩
  | .hbm, ⟨13, _⟩ => ⟨S_, .f32⟩
  | .hbm, ⟨14, _⟩ => ⟨S32x1024, .f32⟩
  | .hbm, ⟨15, _⟩ => ⟨S32x1024, .f32⟩
  | .hbm, ⟨16, _⟩ => ⟨S32x1024x1, .f32⟩
  | .hbm, ⟨17, _⟩ => ⟨S32x1024x1024, .f32⟩
  | .hbm, ⟨18, _⟩ => ⟨S32x1024x1024, .f32⟩
  | .hbm, ⟨19, _⟩ => ⟨S32x1x1024, .f32⟩
  | .hbm, ⟨20, _⟩ => ⟨S32x1024x1024, .f32⟩
  | .hbm, ⟨21, _⟩ => ⟨S32x1024x2048, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  concatenates_S32x1024x1024_S32x1024x1024_S32x1024x2048_d2 : Shape.Concatenates [S32x1024x1024, S32x1024x1024] S32x1024x2048 2
  dot_S32x1024_S1024x1024_S32x1024_1_0_0_1_n_n_wf : DotDims.WF S32x1024 S1024x1024 S32x1024 [1] [0] [0] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

class Facts : Prop extends Facts₀ where

variable [Facts]
-- ==== Proof.GateBlock.lean ====
/-
  One grid point's stored block, read at an index, over the extended reals.

  The body loads the query row `v0 : [1, 1, 1024]`, the bias tile `v3 : [1, 1, 512]`, the weight tile
  `v6 : [1024, 512]` and the graph tile `v10 : [1, 512, 1024]`, and stores one `[1, 512, 2048]` block: row `r` of it
  holds, below 1024 on the last axis, `σ(∑ₖ v0[0,0,k] · v6[k,r] + v3[0,0,r]) · v10[0,r,d]`, and from 1024 on the query
  row `v0[0,0,d − 1024]`. Each layout step between the loads and the store (dropping or adding a unit axis, repeating
  a column or a row, joining two tiles along the last axis) is read at an index by one small lemma; the product with
  the weight tile is the plain sum over the contracted axis, the accumulator being the zero word.
-/
import proofs.«176261_j4217657884733_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## Unit axes dropped and added -/

/-- A `[1, 1, 1024]` vector viewed as `[1, 1024]`: entry `(0, k)` is entry `(0, 0, k)`. -/
theorem row_of_unit (x : S1x1x1024.Idx → EReal) (h : S1x1x1024.ShapeCasts S1x1024) (k : Fin 1024) :
    shapeCast S1x1024 x h (ix2 0 k) = x (ix3 0 0 k) :=
  shapeCast_apply x h (ix2 0 k) (ix3 0 0 k) (by
    rw [Shape.rowMajor_val_three, Shape.rowMajor_val_two]
    show (0 * 1 + 0) * 1024 + k.val = 0 * 1024 + k.val
    omega)

/-- A `[1, 1, 512]` vector viewed as `[1, 512]`: entry `(0, r)` is entry `(0, 0, r)`. -/
theorem tile_of_unit (x : S1x1x512.Idx → EReal) (h : S1x1x512.ShapeCasts S1x512) (r : Fin 512) :
    shapeCast S1x512 x h (ix2 0 r) = x (ix3 0 0 r) :=
  shapeCast_apply x h (ix2 0 r) (ix3 0 0 r) (by
    rw [Shape.rowMajor_val_three, Shape.rowMajor_val_two]
    show (0 * 1 + 0) * 512 + r.val = 0 * 512 + r.val
    omega)

/-- A `[1, 512]` vector stood up as a `[1, 512, 1]` column: entry `(0, r, 0)` is entry `(0, r)`. -/
theorem column_of_row (x : S1x512.Idx → EReal) (h : S1x512.ShapeCasts S1x512x1) (r : Fin 512) :
    shapeCast S1x512x1 x h (ix3 0 r 0) = x (ix2 0 r) :=
  shapeCast_apply x h (ix3 0 r 0) (ix2 0 r) (by
    rw [Shape.rowMajor_val_three, Shape.rowMajor_val_two]
    show 0 * 512 + r.val = (0 * 512 + r.val) * 1 + 0
    omega)

/-- A `[1, 1024]` vector given a middle unit axis: entry `(0, 0, k)` is entry `(0, k)`. -/
theorem unit_of_row (x : S1x1024.Idx → EReal) (h : S1x1024.ShapeCasts S1x1x1024) (k : Fin 1024) :
    shapeCast S1x1x1024 x h (ix3 0 0 k) = x (ix2 0 k) :=
  shapeCast_apply x h (ix3 0 0 k) (ix2 0 k) (by
    rw [Shape.rowMajor_val_three, Shape.rowMajor_val_two]
    show 0 * 1024 + k.val = (0 * 1 + 0) * 1024 + k.val
    omega)

/-! ## A column and a row repeated -/

/-- A `[1, 512, 1]` column repeated along the last axis: entry `(0, r, d)` is the column's entry `r`. -/
theorem repeat_column (x : S1x512x1.Idx → EReal) (h : S1x512x1.Broadcasts S1x512x1024) (r : Fin 512) (d : Fin 1024) :
    broadcastTo S1x512x1024 x h (ix3 0 r d) = x (ix3 0 r 0) :=
  broadcastTo_apply x h (ix3 0 r d) (ix3 0 r 0) (fun a => match a with
    | ⟨0, _⟩ => by show (0 : Nat) = if (1 : Nat) = 1 then 0 else _; rw [if_pos rfl]
    | ⟨1, _⟩ => by show r.val = if (512 : Nat) = 1 then 0 else r.val; rw [if_neg (by decide)]
    | ⟨2, _⟩ => by show (0 : Nat) = if (1 : Nat) = 1 then 0 else _; rw [if_pos rfl])

/-- A `[1, 1, 1024]` row repeated along the middle axis: entry `(0, r, d)` is the row's entry `d`. -/
theorem repeat_row (x : S1x1x1024.Idx → EReal) (h : S1x1x1024.Broadcasts S1x512x1024) (r : Fin 512) (d : Fin 1024) :
    broadcastTo S1x512x1024 x h (ix3 0 r d) = x (ix3 0 0 d) :=
  broadcastTo_apply x h (ix3 0 r d) (ix3 0 0 d) (fun a => match a with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show d.val = if (1024 : Nat) = 1 then 0 else d.val; rw [if_neg (by decide)])

/-! ## The product with the weight tile -/

theorem lhs_axis0 (i : S1x512.Idx) (q : dot_S1x1024_S1024x512_S1x512_1_0_0_1_n_n.contr.Idx) :
    (dot_S1x1024_S1024x512_S1x512_1_0_0_1_n_n.lhsIdx i q 0).val = (i 0).val := by
  unfold DotDims.lhsIdx
  rw [dif_neg (show ¬(0 : Fin S1x1024.rank) ∈ dot_S1x1024_S1024x512_S1x512_1_0_0_1_n_n.lhsBatch by decide), dif_pos (show (0 : Fin S1x1024.rank) ∈ dot_S1x1024_S1024x512_S1x512_1_0_0_1_n_n.lhsNonContracting by decide)]
  rfl
theorem lhs_axis1 (i : S1x512.Idx) (q : dot_S1x1024_S1024x512_S1x512_1_0_0_1_n_n.contr.Idx) :
    (dot_S1x1024_S1024x512_S1x512_1_0_0_1_n_n.lhsIdx i q 1).val = (q ⟨0, by decide⟩).val :=
  dot_S1x1024_S1024x512_S1x512_1_0_0_1_n_n.lhsIdx_val_of_single rfl i q
theorem rhs_axis0 (i : S1x512.Idx) (q : dot_S1x1024_S1024x512_S1x512_1_0_0_1_n_n.contr.Idx) :
    (dot_S1x1024_S1024x512_S1x512_1_0_0_1_n_n.rhsIdx i q 0).val = (q ⟨0, by decide⟩).val :=
  dot_S1x1024_S1024x512_S1x512_1_0_0_1_n_n.rhsIdx_val_of_single rfl i q
theorem rhs_axis1 (i : S1x512.Idx) (q : dot_S1x1024_S1024x512_S1x512_1_0_0_1_n_n.contr.Idx) :
    (dot_S1x1024_S1024x512_S1x512_1_0_0_1_n_n.rhsIdx i q 1).val = (i 1).val := by
  unfold DotDims.rhsIdx
  rw [dif_neg (show ¬(1 : Fin S1024x512.rank) ∈ dot_S1x1024_S1024x512_S1x512_1_0_0_1_n_n.rhsBatch by decide), dif_pos (show (1 : Fin S1024x512.rank) ∈ dot_S1x1024_S1024x512_S1x512_1_0_0_1_n_n.rhsNonContracting by decide)]
  rfl

/-- The one-row product into the zero accumulator, at column `r`: the sum over `k` of the row's entry `k` times the
    tile's entry `(k, r)`. -/
theorem row_times_tile (x : FVec Ideal S1x1024 .f32) (w : FVec Ideal S1024x512 .f32) (r : Fin 512) :
    matmul dot_S1x1024_S1024x512_S1x512_1_0_0_1_n_n none x w (constant (F := Ideal) S1x512 .f32 0x00000000#32) (ix2 0 r)
      = ∑ k : Fin 1024, x (ix2 0 k) * w (ix2 k r) := by
  simp only [matmul]
  rw [Ideal.matmul_constant_zero_apply, ← Equiv.sum_comp (contrEquiv1 dot_S1x1024_S1024x512_S1x512_1_0_0_1_n_n 1024 rfl rfl).symm]
  refine Finset.sum_congr rfl fun k _ => ?_
  have hk := contrEquiv1_symm_val dot_S1x1024_S1024x512_S1x512_1_0_0_1_n_n 1024 rfl rfl k
  have el : dot_S1x1024_S1024x512_S1x512_1_0_0_1_n_n.lhsIdx (ix2 0 r) ((contrEquiv1 dot_S1x1024_S1024x512_S1x512_1_0_0_1_n_n 1024 rfl rfl).symm k) = ix2 0 k := funext fun a => Fin.ext (by
    match a with
    | ⟨0, _⟩ => exact lhs_axis0 _ _
    | ⟨1, _⟩ => exact (lhs_axis1 _ _).trans hk)
  have er : dot_S1x1024_S1024x512_S1x512_1_0_0_1_n_n.rhsIdx (ix2 0 r) ((contrEquiv1 dot_S1x1024_S1024x512_S1x512_1_0_0_1_n_n 1024 rfl rfl).symm k) = ix2 k r := funext fun a => Fin.ext (by
    match a with
    | ⟨0, _⟩ => exact (rhs_axis0 _ _).trans hk
    | ⟨1, _⟩ => exact rhs_axis1 _ _)
  rw [el, er]

/-! ## The stored block at an index -/

/-- Below 1024 on the last axis the block holds the row's gate times the graph tile's entry. -/
theorem stored_gated (v0 : Vec Ideal S1x1x1024 .f32) (v3 : Vec Ideal S1x1x512 .f32) (v6 : Vec Ideal S1024x512 .f32)
    (v10 : Vec Ideal S1x512x1024 .f32) (r : Fin 512) (d : Fin 2048) (hd : d.val < 1024) :
    k0_pay1 (F := Ideal) v0 v3 v6 v10 (ix3 0 r d)
      = Ideal.logistic ((∑ k : Fin 1024, v0 (ix3 0 0 k) * v6 (ix2 k r)) + v3 (ix3 0 0 r)) * v10 (ix3 0 r ⟨d.val, hd⟩) := by
  unfold k0_pay1
  refine (concatenate_pair_apply_left (t := S1x512x2048) (s₁ := S1x512x1024) (s₂ := S1x512x1024) 2 _ _ _
    (ix3 0 r d) rfl (ix3 0 r ⟨d.val, hd⟩)
    (fun b => match b with | ⟨0, _⟩ => rfl | ⟨1, _⟩ => rfl | ⟨2, _⟩ => rfl)).trans ?_
  rw [mulf_apply, repeat_column, column_of_row]
  show Ideal.logistic (_ + _) * _ = _
  rw [row_times_tile, tile_of_unit, shapeCast_self]
  simp only [row_of_unit, shapeCast_self]

/-- From 1024 on the block holds the query row. -/
theorem stored_query (v0 : Vec Ideal S1x1x1024 .f32) (v3 : Vec Ideal S1x1x512 .f32) (v6 : Vec Ideal S1024x512 .f32)
    (v10 : Vec Ideal S1x512x1024 .f32) (r : Fin 512) (d : Fin 2048) (hd : 1024 ≤ d.val) :
    k0_pay1 (F := Ideal) v0 v3 v6 v10 (ix3 0 r d) = v0 (ix3 0 0 ⟨d.val - 1024, by have := d.isLt; omega⟩) := by
  unfold k0_pay1
  refine (concatenate_pair_apply_right (t := S1x512x2048) (s₁ := S1x512x1024) (s₂ := S1x512x1024) 2 _ _ _
    (ix3 0 r d) rfl rfl (ix3 0 r ⟨d.val - 1024, by have := d.isLt; omega⟩)
    (fun b => match b with
      | ⟨0, _⟩ => fun _ => rfl
      | ⟨1, _⟩ => fun _ => rfl
      | ⟨2, _⟩ => fun hne => absurd rfl hne)
    (by show d.val - 1024 + 1024 = d.val; omega)).trans ?_
  rw [repeat_row, shapeCast_self, unit_of_row, row_of_unit, shapeCast_self]

end Cert.KernelIdeal.Block

end
-- ==== Proof.FusedGate.lean ====
/-
  The function both programs compute, index by index over the extended reals.

  Take `q : [32, 1024]`, `W : [1024, 1024]`, `bias : [1024]` and `g : [32, 1024, 1024]`. Row `(b, l)` has the
  logit `∑ₖ q[b, k] · W[k, l] + bias[l]` and the gate `σ(logit)`, where `σ(x) = 1 / (1 + e⁻ˣ)` with the extended
  reals' conventions at the infinities. The result `[32, 1024, 2048]` holds, on the first 1024 positions of its last
  axis, the gate of the row times `g[b, l, d]`, and on the last 1024 the query row `q[b, d − 1024]` repeated for
  every `l`. Nothing here distributes a product over a sum or cancels, so no finiteness of the inputs is used.
-/
import Idealize.ShloMosaic.PureOps.Ideal
import Idealize.ShloMosaic.Lib.ValueIdx

noncomputable section

open scoped BigOperators

namespace Cert.FusedGate

open Idealize.ShloMosaic Idealize.ShloMosaic.ValueIdx

/-- The logit of row `(b, l)`: row `b` of `q` against column `l` of `W`, plus `bias[l]`. -/
def logit (q : (⟨2, ![32, 1024]⟩ : Shape).Idx → EReal) (W : (⟨2, ![1024, 1024]⟩ : Shape).Idx → EReal)
    (bias : (⟨1, ![1024]⟩ : Shape).Idx → EReal) (b : Fin 32) (l : Fin 1024) : EReal :=
  (∑ k : Fin 1024, q (ix2 b k) * W (ix2 k l)) + bias (ix1 l)

/-- The gate of row `(b, l)`: the logistic function of its logit. -/
def gate (q : (⟨2, ![32, 1024]⟩ : Shape).Idx → EReal) (W : (⟨2, ![1024, 1024]⟩ : Shape).Idx → EReal)
    (bias : (⟨1, ![1024]⟩ : Shape).Idx → EReal) (b : Fin 32) (l : Fin 1024) : EReal :=
  Ideal.logistic (logit q W bias b l)

/-- The result at coordinates `(b, l, d)`: the gated entry of `g` below 1024 on the last axis, the query's entry
    `d − 1024` from there on. -/
def fusedAt (g : (⟨3, ![32, 1024, 1024]⟩ : Shape).Idx → EReal) (q : (⟨2, ![32, 1024]⟩ : Shape).Idx → EReal)
    (W : (⟨2, ![1024, 1024]⟩ : Shape).Idx → EReal) (bias : (⟨1, ![1024]⟩ : Shape).Idx → EReal)
    (b : Fin 32) (l : Fin 1024) (d : Fin 2048) : EReal :=
  if h : d.val < 1024 then gate q W bias b l * g (ix3 b l ⟨d.val, h⟩)
  else q (ix2 b ⟨d.val - 1024, by have := d.isLt; omega⟩)

/-- The whole result array. -/
def fused (g : (⟨3, ![32, 1024, 1024]⟩ : Shape).Idx → EReal) (q : (⟨2, ![32, 1024]⟩ : Shape).Idx → EReal)
    (W : (⟨2, ![1024, 1024]⟩ : Shape).Idx → EReal) (bias : (⟨1, ![1024]⟩ : Shape).Idx → EReal) :
    (⟨3, ![32, 1024, 2048]⟩ : Shape).Idx → EReal :=
  fun j => fusedAt g q W bias (j 0) (j 1) (j 2)

theorem fused_ix3 (g : (⟨3, ![32, 1024, 1024]⟩ : Shape).Idx → EReal) (q : (⟨2, ![32, 1024]⟩ : Shape).Idx → EReal)
    (W : (⟨2, ![1024, 1024]⟩ : Shape).Idx → EReal) (bias : (⟨1, ![1024]⟩ : Shape).Idx → EReal)
    (b : Fin 32) (l : Fin 1024) (d : Fin 2048) : fused g q W bias (ix3 b l d) = fusedAt g q W bias b l d := rfl

/-- The word `0x3F800000` is the real number one. -/
theorem one_f32 : Ideal.ofBits .f32 0x3F800000#32 = 1 := by
  simp [Ideal.ofBits, Ideal.ieee, -EReal.coe_mul]; norm_num

/-- The logistic function spelt out with the word for one, as a host program expands it — one over one plus the
    exponential of the negation — is the logistic function: that is its definition on the extended reals. -/
theorem logistic_spelt (x : EReal) :
    Ideal.div (Ideal.ofBits .f32 0x3F800000#32) (Ideal.ofBits .f32 0x3F800000#32 + Ideal.exp (-x)) = Ideal.logistic x := by
  rw [one_f32]; rfl

end Cert.FusedGate

end
-- ==== Proof.TileValue.lean ====
/-
  One grid point's stored block is the matching tile of the fused gate array.

  Let the point work on batch row `b` and on the `l`-tile `n` (rows `512·n … 512·n + 511`). If the four loaded tiles
  are the matching parts of the whole arrays — the query tile row `b` of `q`, the bias tile and the weight tile the
  columns `512·n + r`, the graph tile the rows `(b, 512·n + r)` of `g` — then the stored block's entry `(0, r, d)`
  is the fused gate array's entry `(b, 512·n + r, d)`: the sum over `k` is literally the same sum.
-/
import proofs.«176261_j4217657884733_1_alg».proof.Proof.GateBlock
import proofs.«176261_j4217657884733_1_alg».proof.Proof.FusedGate

noncomputable section

open scoped BigOperators

namespace Cert.KernelIdeal.Block

open Cert.KernelIdeal Cert.KernelIdeal.Gen Idealize.ShloMosaic Idealize.ShloMosaic.ValueIdx Cert.FusedGate

/-- Row `r` of tile `n` is row `512·n + r` of the array. -/
abbrev rowOf (n : Fin 2) (r : Fin 512) : Fin 1024 := ⟨n.val * 512 + r.val, by have := n.isLt; have := r.isLt; omega⟩

theorem stored_eq_fused (g : S32x1024x1024.Idx → EReal) (q : S32x1024.Idx → EReal) (W : S1024x1024.Idx → EReal)
    (bias : S1024.Idx → EReal)
    (v0 : Vec Ideal S1x1x1024 .f32) (v3 : Vec Ideal S1x1x512 .f32) (v6 : Vec Ideal S1024x512 .f32)
    (v10 : Vec Ideal S1x512x1024 .f32) (b : Fin 32) (n : Fin 2)
    (hq : ∀ k : Fin 1024, v0 (ix3 0 0 k) = q (ix2 b k))
    (hb : ∀ r : Fin 512, v3 (ix3 0 0 r) = bias (ix1 (rowOf n r)))
    (hW : ∀ (k : Fin 1024) (r : Fin 512), v6 (ix2 k r) = W (ix2 k (rowOf n r)))
    (hg : ∀ (r : Fin 512) (d : Fin 1024), v10 (ix3 0 r d) = g (ix3 b (rowOf n r) d))
    (r : Fin 512) (d : Fin 2048) :
    k0_pay1 (F := Ideal) v0 v3 v6 v10 (ix3 0 r d) = fusedAt g q W bias b (rowOf n r) d := by
  unfold fusedAt
  by_cases hd : d.val < 1024
  · rw [dif_pos hd, stored_gated v0 v3 v6 v10 r d hd, hb, hg]
    unfold gate logit
    simp only [hq, hW]
  · rw [dif_neg hd, stored_query v0 v3 v6 v10 r d (Nat.le_of_not_lt hd), hq]

end Cert.KernelIdeal.Block

end
-- ==== Proof.EntryArrays.lean ====
/-
  The two arrays the host prepares before the kernel runs.

  Before the call the program views the query `[32, 1024]` as `[32, 1, 1024]` and the bias `[1024]` as `[1, 1, 1024]`:
  a unit axis is added and no entry moves. Read at an index: entry `(b, 0, k)` of the first is the query's entry
  `(b, k)`, entry `(0, 0, l)` of the second is the bias's entry `l`.
-/
import proofs.«176261_j4217657884733_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The query with its middle unit axis, as the kernel finds it. -/
theorem query3_eq (c : Dev nD) (h : S32x1024.ShapeCasts S32x1x1024) :
    (V m c main_v0 : S32x1x1024.Idx → EReal) = shapeCast S32x1x1024 (m ((c : Thread nD τ).loc main_arg1)) h := by
  dsimp only [V, hostOps0]; after_results; rfl

/-- The bias with its two leading unit axes, as the kernel finds it. -/
theorem bias3_eq (c : Dev nD) (h : S1024.ShapeCasts S1x1x1024) :
    (V m c main_v1 : S1x1x1024.Idx → EReal) = shapeCast S1x1x1024 (m ((c : Thread nD τ).loc main_arg3)) h := by
  dsimp only [V, hostOps0]; after_results; rfl

theorem query3_apply (c : Dev nD) (b : Fin 32) (k : Fin 1024) :
    (V m c main_v0 : S32x1x1024.Idx → EReal) (ix3 b 0 k) = m ((c : Thread nD τ).loc main_arg1) (ix2 b k) := by
  rw [query3_eq m c Facts₀.shapeCasts_S32x1024_S32x1x1024]
  exact shapeCast_apply _ _ (ix3 b 0 k) (ix2 b k) (by
    rw [Shape.rowMajor_val_three, Shape.rowMajor_val_two]
    show b.val * 1024 + k.val = (b.val * 1 + 0) * 1024 + k.val
    omega)

theorem bias3_apply (c : Dev nD) (l : Fin 1024) :
    (V m c main_v1 : S1x1x1024.Idx → EReal) (ix3 0 0 l) = m ((c : Thread nD τ).loc main_arg3) (ix1 l) := by
  rw [bias3_eq m c Facts₀.shapeCasts_S1024_S1x1x1024]
  exact shapeCast_apply _ _ (ix3 0 0 l) (ix1 l) (by
    rw [Shape.rowMajor_val_three, Shape.rowMajor_val_one]
    show l.val = (0 * 1 + 0) * 1024 + l.val
    omega)

end Cert.KernelIdeal.Entry

end
-- ==== Proof.FusedArray.lean ====
/-
  After the kernel's run the output array is the fused gate array.

  The grid has 2 × 32 points; the point with coordinates `(n, b)` works on batch row `b` and on the `l`-tile `n`. Its
  windows are: the graph tile `g[b, 512n … 512n+511, :]`, the query row `q[b, :]` (through the `[32, 1, 1024]` view),
  the weight columns `W[:, 512n … 512n+511]`, the bias entries `512n … 512n+511` (through the `[1, 1, 1024]` view), and
  the output tile `[b, 512n … 512n+511, :]`. So what the point writes back is the matching tile of the fused gate array
  (`Block.stored_eq_fused`), the 64 output tiles cover the `[32, 1024, 2048]` array (the point for row `(b, l)` is the
  one with `n = l / 512`), and the array ends holding the fused gate array.
-/
import proofs.«176261_j4217657884733_1_alg».proof.Proof.Gen.KernelIdeal.Value
import proofs.«176261_j4217657884733_1_alg».proof.Proof.TileValue
import proofs.«176261_j4217657884733_1_alg».proof.Proof.EntryArrays

set_option maxRecDepth 16384

noncomputable section

open scoped BigOperators

namespace Cert.KernelIdeal.FusedValue

open Cert.KernelIdeal Cert.KernelIdeal.Gen Idealize.ShloMosaic Idealize.ShloMosaic.TcCoe Idealize.SL.Sem
open Idealize.ShloMosaic.Pipeline (Dat)
open Idealize.ShloMosaic.ValueIdx Cert.FusedGate Cert.KernelIdeal.Block

variable (m : (ℓ : Loc nD τ sig) → Buf (Elt Ideal) ℓ) (ρ : Dev nD → PrngReg)

/-- The four argument arrays on core `c`, at their literal types. -/
abbrev graphArr (c : Dev nD) : S32x1024x1024.Idx → EReal := m ((c : Thread nD τ).loc main_arg0)
abbrev queryArr (c : Dev nD) : S32x1024.Idx → EReal := m ((c : Thread nD τ).loc main_arg1)
abbrev weightArr (c : Dev nD) : S1024x1024.Idx → EReal := m ((c : Thread nD τ).loc main_arg2)
abbrev biasArr (c : Dev nD) : S1024.Idx → EReal := m ((c : Thread nD τ).loc main_arg3)

/-- The fused gate array of core `c`'s arguments. -/
abbrev target (c : Dev nD) : S32x1024x2048.Idx → EReal :=
  fused (graphArr m c) (queryArr m c) (weightArr m c) (biasArr m c)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps, decided over the 64 points: where each input window's block sits relative to the output's block
    `(b, n, 0)`, and the ranges of `b` and `n`. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = win0_4.index t (1 : Fin 3)
    ∧ win0_3.index t (0 : Fin 3) = 0 ∧ win0_3.index t (1 : Fin 3) = 0 ∧ win0_3.index t (2 : Fin 3) = win0_4.index t (1 : Fin 3)
    ∧ win0_4.index t (0 : Fin 3) < 32 ∧ win0_4.index t (1 : Fin 3) < 2 ∧ win0_4.index t (2 : Fin 3) = 0 :=
  (by decide +kernel : ∀ t : Fin grid0.N, _)

/-- Every pair (batch row, tile) is some point's. -/
theorem idx_onto : ∀ (b : Fin 32) (n : Fin 2), ∃ t : Fin cfg0.N, win0_4.index t = ![b.val, n.val, 0] :=
  (by decide +kernel : ∀ (b : Fin 32) (n : Fin 2), ∃ t : Fin grid0.N, win0_4.index t = ![b.val, n.val, 0])

/-- The batch row and the tile of point `t`. -/
abbrev rowAt (t : Fin cfg0.N) : Fin 32 := ⟨win0_4.index t (0 : Fin 3), (idx_facts t).2.2.2.2.2.2.2.2.2.2.2.1⟩
abbrev tileAt (t : Fin cfg0.N) : Fin 2 := ⟨win0_4.index t (1 : Fin 3), (idx_facts t).2.2.2.2.2.2.2.2.2.2.2.2.1⟩

/-! ## The input windows' blocks at a point, as parts of the argument arrays -/

theorem query_blk (c : Dev nD) (t : Fin cfg0.N) (k : Fin 1024) :
    (iblk m c 1 t : S1x1x1024.Idx → EReal) (ix3 0 0 k) = queryArr m c (ix2 (rowAt t) k) := by
  obtain ⟨-, -, -, e0, e1, e2, -⟩ := idx_facts t
  show (V m c main_v0 : S32x1x1024.Idx → EReal) (((cfg0.win 1).blk t).view.emb (ix3 0 0 k)) = _
  have he : ((cfg0.win 1).blk t).view.emb (ix3 0 0 k) = (ix3 (rowAt t) 0 k : S32x1x1024.Idx) := by
    funext a; apply Fin.ext
    match a with
    | ⟨0, _⟩ => show win0_1.index t (0 : Fin 3) * 1 + 1 * 0 = win0_4.index t (0 : Fin 3); omega
    | ⟨1, _⟩ => show win0_1.index t (1 : Fin 3) * 1 + 1 * 0 = 0; omega
    | ⟨2, _⟩ => show win0_1.index t (2 : Fin 3) * 1024 + 1 * k.val = k.val; omega
  rw [he]
  exact Entry.query3_apply m c (rowAt t) k

theorem bias_blk (c : Dev nD) (t : Fin cfg0.N) (r : Fin 512) :
    (iblk m c 3 t : S1x1x512.Idx → EReal) (ix3 0 0 r) = biasArr m c (ix1 (rowOf (tileAt t) r)) := by
  obtain ⟨-, -, -, -, -, -, -, -, e0, e1, e2, -⟩ := idx_facts t
  show (V m c main_v1 : S1x1x1024.Idx → EReal) (((cfg0.win 3).blk t).view.emb (ix3 0 0 r)) = _
  have he : ((cfg0.win 3).blk t).view.emb (ix3 0 0 r) = (ix3 0 0 (rowOf (tileAt t) r) : S1x1x1024.Idx) := by
    funext a; apply Fin.ext
    match a with
    | ⟨0, _⟩ => show win0_3.index t (0 : Fin 3) * 1 + 1 * 0 = 0; omega
    | ⟨1, _⟩ => show win0_3.index t (1 : Fin 3) * 1 + 1 * 0 = 0; omega
    | ⟨2, _⟩ => show win0_3.index t (2 : Fin 3) * 512 + 1 * r.val = win0_4.index t (1 : Fin 3) * 512 + r.val; omega
  rw [he]
  exact Entry.bias3_apply m c (rowOf (tileAt t) r)

theorem weight_blk (c : Dev nD) (t : Fin cfg0.N) (k : Fin 1024) (r : Fin 512) :
    (iblk m c 2 t : S1024x512.Idx → EReal) (ix2 k r) = weightArr m c (ix2 k (rowOf (tileAt t) r)) := by
  obtain ⟨-, -, -, -, -, -, e0, e1, -⟩ := idx_facts t
  show (V m c main_arg2 : S1024x1024.Idx → EReal) (((cfg0.win 2).blk t).view.emb (ix2 k r)) = _
  have he : ((cfg0.win 2).blk t).view.emb (ix2 k r) = (ix2 k (rowOf (tileAt t) r) : S1024x1024.Idx) := by
    funext a; apply Fin.ext
    match a with
    | ⟨0, _⟩ => show win0_2.index t (0 : Fin 2) * 1024 + 1 * k.val = k.val; omega
    | ⟨1, _⟩ => show win0_2.index t (1 : Fin 2) * 512 + 1 * r.val = win0_4.index t (1 : Fin 3) * 512 + r.val; omega
  rw [he, V_main_arg2]

theorem graph_blk (c : Dev nD) (t : Fin cfg0.N) (r : Fin 512) (d : Fin 1024) :
    (iblk m c 0 t : S1x512x1024.Idx → EReal) (ix3 0 r d) = graphArr m c (ix3 (rowAt t) (rowOf (tileAt t) r) d) := by
  obtain ⟨e0, e1, e2, -⟩ := idx_facts t
  show (V m c main_arg0 : S32x1024x1024.Idx → EReal) (((cfg0.win 0).blk t).view.emb (ix3 0 r d)) = _
  have he : ((cfg0.win 0).blk t).view.emb (ix3 0 r d) = (ix3 (rowAt t) (rowOf (tileAt t) r) d : S32x1024x1024.Idx) := by
    funext a; apply Fin.ext
    match a with
    | ⟨0, _⟩ => show win0_0.index t (0 : Fin 3) * 1 + 1 * 0 = win0_4.index t (0 : Fin 3); omega
    | ⟨1, _⟩ => show win0_0.index t (1 : Fin 3) * 512 + 1 * r.val = win0_4.index t (1 : Fin 3) * 512 + r.val; omega
    | ⟨2, _⟩ => show win0_0.index t (2 : Fin 3) * 1024 + 1 * d.val = d.val; omega
  rw [he, V_main_arg0]

/-! ## What a point writes back, the cover, and the array after the run -/

/-- Point `t` writes back tile `t` of the fused gate array. -/
theorem flushed_eq (c : Dev nD) (t : Fin cfg0.N) :
    (dats m 0 c).flushed 4 t = ((cfg0.win 4).blk t).view.read (Elt Ideal) (target m c) := by
  rw [Value.flushed4]
  unfold out0_4
  rw [View.canon_unit_zero hz3]
  simp only [View.ld_unit_zero (S := S1x1x1024) hz3, View.ld_unit_zero (S := S1x1x512) hz3,
    View.ld_unit_zero (S := S1024x512) hz2, View.ld_unit_zero (S := S1x512x1024) hz3]
  obtain ⟨-, -, -, -, -, -, -, -, -, -, -, -, -, e2⟩ := idx_facts t
  funext j
  have hj0 : (j 0).val < 1 := (j 0).isLt
  have hj1 : (j 1).val < 512 := (j 1).isLt
  have hj2 : (j 2).val < 2048 := (j 2).isLt
  have ej : (cfg0.win 4).xinj (grid0.coords t) j = (ix3 0 ⟨(j 1).val, hj1⟩ ⟨(j 2).val, hj2⟩ : S1x512x2048.Idx) := by
    funext a; apply Fin.ext
    match a with
    | ⟨0, _⟩ => show (j 0).val = 0; omega
    | ⟨1, _⟩ => rfl
    | ⟨2, _⟩ => rfl
  have ee : ((cfg0.win 4).blk t).view.emb j
      = (ix3 (rowAt t) (rowOf (tileAt t) ⟨(j 1).val, hj1⟩) ⟨(j 2).val, hj2⟩ : S32x1024x2048.Idx) := by
    funext a; apply Fin.ext
    match a with
    | ⟨0, _⟩ => show win0_4.index t (0 : Fin 3) * 1 + 1 * (j 0).val = win0_4.index t (0 : Fin 3); omega
    | ⟨1, _⟩ => show win0_4.index t (1 : Fin 3) * 512 + 1 * (j 1).val = win0_4.index t (1 : Fin 3) * 512 + (j 1).val; omega
    | ⟨2, _⟩ => show win0_4.index t (2 : Fin 3) * 2048 + 1 * (j 2).val = (j 2).val; omega
  show k0_pay1 (F := Ideal) (iblk m c 1 t) (iblk m c 3 t) (iblk m c 2 t) (iblk m c 0 t) ((cfg0.win 4).xinj (grid0.coords t) j)
    = target m c (((cfg0.win 4).blk t).view.emb j)
  rw [ej, ee]
  exact stored_eq_fused (graphArr m c) (queryArr m c) (weightArr m c) (biasArr m c)
    (iblk m c 1 t) (iblk m c 3 t) (iblk m c 2 t) (iblk m c 0 t) (rowAt t) (tileAt t)
    (query_blk m c t) (bias_blk m c t) (weight_blk m c t) (graph_blk m c t) ⟨(j 1).val, hj1⟩ ⟨(j 2).val, hj2⟩

/-- An index of the output array is in point `t`'s tile iff each coordinate is in the tile's range on its axis. -/
theorem mem_blk (t : Fin cfg0.N) (i : S32x1024x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v2).slice (win0_4.rect t)).set ↔ _
  rw [View.set_slice_whole, Rect.mem_set_unit]
  exact Iff.rfl

/-- Every index of the output array is in some point's tile: the point of its batch row and of the tile
    its middle coordinate falls in. -/
theorem cover (i : S32x1024x2048.Idx) :
    ∃ t : Fin cfg0.N, (cfg0.win 4).flush t = true ∧ i ∈ ((cfg0.win 4).blk t).view.set := by
  have hi0 : (i 0).val < 32 := (i 0).isLt
  have hi1 : (i 1).val < 1024 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The output array after the run is the fused gate array. -/
theorem final (c : Dev nD) : (dats m 0 c).arrAt 4 cfg0.N = target m c :=
  (dats m 0 c).arrAt_eq_of_cover 4 (target m c) (fun t _ => flushed_eq m c t) cover

/-- The kernel's run: it ends with the output at the fused gate array of the arguments, the arguments unchanged. -/
theorem run : θ_run defs (onTc (τ := τ) (main (F := Ideal))) ⟨m, fun _ => 0, ρ⟩ fun r => ∀ c : Dev nD,
      r.2.mem ((c : Thread nD τ).loc main_v2) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.FusedValue

end
-- ==== Proof.RefFused.lean ====
/-
  The reference computes the fused gate array.

  Its program multiplies the whole query by the whole weight matrix, adds the bias repeated over the batch, applies
  the logistic function spelt out as one over one plus the exponential of the negation, repeats each gate along a
  new last axis and multiplies by the graph array; beside it the query is repeated along a new middle axis; the two
  arrays are joined along the last axis. Read at an index `(b, l, d)`, the first 1024 positions of the last axis come
  from the gated product and the rest from the repeated query — the function `FusedGate.fused`.
-/
import proofs.«176261_j4217657884733_1_alg».proof.Proof.Gen.ReferenceIdeal.Read
import proofs.«176261_j4217657884733_1_alg».proof.Proof.FusedGate

noncomputable section

open scoped BigOperators

namespace Cert.ReferenceIdeal.Fused

open Cert.ReferenceIdeal Cert.ReferenceIdeal.Read Idealize.ShloMosaic Idealize.ShloMosaic.ValueIdx Cert.FusedGate

/-- The gated product at `(b, l, d)`: the gate of row `(b, l)` times the graph array's entry. -/
theorem gated_apply (x0 : S32x1024x1024.Idx → EReal) (x1 : S32x1024.Idx → EReal) (x2 : S1024x1024.Idx → EReal)
    (x3 : S1024.Idx → EReal) (b : Fin 32) (l : Fin 1024) (d : Fin 1024) :
    val_main_v12 (F := Ideal) x0 x1 x2 x3 (ix3 b l d) = gate x1 x2 x3 b l * x0 (ix3 b l d) := by
  have eL : ∀ k : Fin 1024, lidx_main_v0 (idx_main_v10 (idx_main_v11 (ix3 b l d))) k = ix2 b k := fun k =>
    funext fun a => Fin.ext (by match a with | ⟨0, _⟩ => rfl | ⟨1, _⟩ => rfl)
  have eR : ∀ k : Fin 1024, ridx_main_v0 (idx_main_v10 (idx_main_v11 (ix3 b l d))) k = ix2 k l := fun k =>
    funext fun a => Fin.ext (by match a with | ⟨0, _⟩ => rfl | ⟨1, _⟩ => rfl)
  have eB : idx_main_v1 (idx_main_v2 (idx_main_v10 (idx_main_v11 (ix3 b l d)))) = ix1 l :=
    funext fun a => Fin.ext (by match a with | ⟨0, _⟩ => rfl)
  rw [val_main_v12_apply, val_main_v11_apply, val_main_v10_apply, val_main_v9_apply, val_main_v8_apply,
    val_main_cst_0_apply, val_main_v7_apply, val_main_v6_apply, val_main_cst_apply, val_main_v5_apply,
    val_main_v4_apply, val_main_v3_apply, val_main_v2_apply, val_main_v1_apply, val_main_v0_apply]
  simp only [eL, eR, eB, Ideal.ofBits_def, Ideal.hostDivf_def, Ideal.addf_def, Ideal.hostUnary_exp_def,
    Ideal.hostNegf_def, Ideal.negf_def, Ideal.mulf_def, logistic_spelt]
  rfl

/-- The repeated query at `(b, l, d)`: the query's entry `(b, d)`. -/
theorem query_apply (x1 : S32x1024.Idx → EReal) (b : Fin 32) (l : Fin 1024) (d : Fin 1024) :
    val_main_v14 (F := Ideal) x1 (ix3 b l d) = x1 (ix2 b d) := by
  rw [val_main_v14_apply, val_main_v13_apply]
  exact congrArg x1 (funext fun a => Fin.ext (by match a with | ⟨0, _⟩ => rfl | ⟨1, _⟩ => rfl))

/-- The reference's result is the fused gate array of its four arguments. -/
theorem result_eq (x0 : S32x1024x1024.Idx → EReal) (x1 : S32x1024.Idx → EReal) (x2 : S1024x1024.Idx → EReal)
    (x3 : S1024.Idx → EReal) : val_main_v15 (F := Ideal) x0 x1 x2 x3 = fused x0 x1 x2 x3 := by
  funext j
  obtain ⟨b, l, d, rfl⟩ : ∃ (b : Fin 32) (l : Fin 1024) (d : Fin 2048), j = ix3 b l d := ⟨j 0, j 1, j 2, eq_ix3 j⟩
  rw [fused_ix3]
  unfold val_main_v15 fusedAt
  by_cases hd : d.val < 1024
  · rw [dif_pos hd]
    refine (concatenate_pair_apply_left (t := S32x1024x2048) (s₁ := S32x1024x1024) (s₂ := S32x1024x1024) 2 _ _ _
      (ix3 b l d) rfl (ix3 b l ⟨d.val, hd⟩)
      (fun a => match a with | ⟨0, _⟩ => rfl | ⟨1, _⟩ => rfl | ⟨2, _⟩ => rfl)).trans ?_
    exact gated_apply x0 x1 x2 x3 b l ⟨d.val, hd⟩
  · rw [dif_neg hd]
    refine (concatenate_pair_apply_right (t := S32x1024x2048) (s₁ := S32x1024x1024) (s₂ := S32x1024x1024) 2 _ _ _
      (ix3 b l d) rfl rfl (ix3 b l ⟨d.val - 1024, by have := d.isLt; omega⟩)
      (fun a => match a with
        | ⟨0, _⟩ => fun _ => rfl
        | ⟨1, _⟩ => fun _ => rfl
        | ⟨2, _⟩ => fun hne => absurd rfl hne)
      (by show d.val - 1024 + 1024 = d.val; omega)).trans ?_
    exact query_apply x1 b l _

end Cert.ReferenceIdeal.Fused

end
-- ==== Proof.lean ====
/-
  The certificate of the fused gate kernel against its reference.

  Both programs take a graph array `g : [32, 1024, 1024]`, a query `q : [32, 1024]`, a weight matrix
  `W : [1024, 1024]` and a bias `[1024]`, and return the `[32, 1024, 2048]` array whose entry `(b, l, d)` is
  `σ(∑ₖ q[b, k] · W[k, l] + bias[l]) · g[b, l, d]` for `d < 1024` and `q[b, d − 1024]` from there on, with
  `σ(x) = 1 / (1 + e⁻ˣ)`. The kernel computes it tile by tile over a 2 × 32 grid with the logistic function as one
  operation; the reference computes it on whole arrays with the logistic function spelt out by its definition. Over
  the extended reals the two are the same function of the arguments, term by term: the sums over `k` are the same
  sums, and the spelt-out logistic function is the logistic function's definition. No law that needs finite inputs
  is used.

  The three frames are the generated frame runs (the reference's is its generated run with the result dropped); the
  idealization rewrote nothing, so nothing is owed for it; the value claim sets the kernel's run
  (`FusedValue.run`) beside the reference's (`Fused.result_eq`) at the one function `FusedGate.fused`.
-/
import proofs.«176261_j4217657884733_1_alg».proof.Defs
import proofs.«176261_j4217657884733_1_alg».proof.Proof.Gen.Kernel
import proofs.«176261_j4217657884733_1_alg».proof.Proof.Gen.Kernel.Skeleton
import proofs.«176261_j4217657884733_1_alg».proof.Proof.Gen.Kernel.Launch
import proofs.«176261_j4217657884733_1_alg».proof.Proof.Gen.Kernel.Points
import proofs.«176261_j4217657884733_1_alg».proof.Proof.Gen.Kernel.Frame
import proofs.«176261_j4217657884733_1_alg».proof.Proof.Gen.KernelIdeal
import proofs.«176261_j4217657884733_1_alg».proof.Proof.Gen.KernelIdeal.Skeleton
import proofs.«176261_j4217657884733_1_alg».proof.Proof.Gen.KernelIdeal.Launch
import proofs.«176261_j4217657884733_1_alg».proof.Proof.Gen.KernelIdeal.Points
import proofs.«176261_j4217657884733_1_alg».proof.Proof.Gen.KernelIdeal.Frame
import proofs.«176261_j4217657884733_1_alg».proof.Proof.Gen.KernelIdeal.Value
import proofs.«176261_j4217657884733_1_alg».proof.Proof.Gen.ReferenceIdeal
import proofs.«176261_j4217657884733_1_alg».proof.Proof.Gen.ReferenceIdeal.Run
import proofs.«176261_j4217657884733_1_alg».proof.Proof.Gen.ReferenceIdeal.Read
import proofs.«176261_j4217657884733_1_alg».proof.Proof.Gen.Pre_finite_inputs
import proofs.«176261_j4217657884733_1_alg».proof.Proof.FusedArray
import proofs.«176261_j4217657884733_1_alg».proof.Proof.RefFused
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the fused gate array of those arguments:
    the kernel by its tiles covering the output, the reference operation by operation. -/
theorem algebraic : Cert.algebraic_KernelIdeal_ReferenceIdeal := by
  intro m ρ m' ρ' _ hagree
  refine ⟨fun c => Cert.KernelIdeal.FusedValue.target m c, Cert.KernelIdeal.FusedValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Fused.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
